-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S500000 : S_.BroadcastsInDim S500000 (![] : Fin 0 → Fin S500000.rank)
  reducesTo_S500000_S_d0 : S500000.ReducesTo [0] S_
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg7 : FVec F S512 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x512 .f32) (main_arg1 : IVec S500000 32) (main_arg2 : IVec S500000 32) (main_arg3 : FVec F S500000 .f32) (main_arg4 : IVec S25000 32) (main_arg5 : FVec F S100000x512 .f32) (main_arg6 : FVec F S512x512 .f32) (main_arg7 : FVec F S512 .f32) (main_arg8 : FVec F S512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S500000 .f32 := Host.absf main_arg3
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S100000x512 .f32 := Host.absf main_arg5
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_v13 main_v16
-- ==== Kernel.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S500000x1 : Shape := ⟨2, ![500000, 1]⟩
abbrev S_ : Shape := ⟨0, ![]⟩
abbrev S500000x512 : Shape := ⟨2, ![500000, 512]⟩
abbrev S25000x512 : Shape := ⟨2, ![25000, 512]⟩
abbrev S25000x1 : Shape := ⟨2, ![25000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 39
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S25000, .i32⟩
  | .hbm, ⟨5, _⟩ => ⟨S100000x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S500000x1, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x512, .f32⟩
  | .hbm, ⟨20, _⟩ => ⟨S500000x512, .f32⟩
  | .hbm, ⟨21, _⟩ => ⟨S500000x512, .f32⟩
  | .hbm, ⟨22, _⟩ => ⟨S_, .f32⟩
  | .hbm, ⟨23, _⟩ => ⟨S25000x512, .f32⟩
  | .hbm, ⟨24, _⟩ => ⟨S500000x1, .i32⟩
  | .hbm, ⟨25, _⟩ => ⟨S25000x512, .f32⟩
  | .hbm, ⟨26, _⟩ => ⟨S_, .i32⟩
  | .hbm, ⟨27, _⟩ => ⟨S25000, .i32⟩
  | .hbm, ⟨28, _⟩ => ⟨S25000, .i1⟩
  | .hbm, ⟨29, _⟩ => ⟨S_, .i32⟩
  | .hbm, ⟨30, _⟩ => ⟨S25000, .i32⟩
  | .hbm, ⟨31, _⟩ => ⟨S25000, .i32⟩
  | .hbm, ⟨32, _⟩ => ⟨S25000, .i32⟩
  | .hbm, ⟨33, _⟩ => ⟨S25000x1, .i32⟩
  | .hbm, ⟨34, _⟩ => ⟨S25000x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S25000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1000x512, .f32⟩
  | .local _ .vmem, ⟨9, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x512_0_1 : S500000x1.BroadcastsInDim S500000x512 (![0, 1] : Fin 2 → Fin S500000x512.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  gather_S50000x512_S500000x1_S500000x512_1_0_n_n_0_1_1512_wf : GatherDims.WF S50000x512 S500000x1 S500000x512 [1] [0] [] [0] [] 1 ![1, 512]
  scatter_S25000x512_S500000x1_S500000x512_1_0_0_1_wf : ScatterDims.WF S25000x512 S500000x1 S500000x512 [1] [0] [0] 1
  gather_S100000x512_S25000x1_S25000x512_1_0_n_n_0_1_1512_wf : GatherDims.WF S100000x512 S25000x1 S25000x512 [1] [0] [] [0] [] 1 ![1, 512]
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S25000x512.size a
  hwx0_1 : ∀ i : grid0.Coords, EltTy.bits .f32 = 32 ∨ (Rect.block (s := S25000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S25000x512.size a
  hwx0_6 : ∀ i : grid0.Coords, EltTy.bits .f32 = 32 ∨ (Rect.block (s := S25000x512) S1000x512.size (cc0_transform_6 i) (hinb0_6 i)).WholeWords (EltTy.packing .f32)

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def gather_S100000x512_S25000x1_S25000x512_1_0_n_n_0_1_1512 : GatherDims S100000x512 S25000x1 S25000x512 where
  offsetDims := [1]
  collapsedSliceDims := [0]
  operandBatchingDims := []
  startIndicesBatchingDims := []
  startIndexMap := [0]
  indexVectorDim := 1
  sliceSizes := ![1, 512]
  wf := gather_S100000x512_S25000x1_S25000x512_1_0_n_n_0_1_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v12) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x512 : Shape := ⟨2, ![50000, 512]⟩
abbrev S500000 : Shape := ⟨1, ![500000]⟩
abbrev S25000 : Shape := ⟨1, ![25000]⟩
abbrev S100000x512 : Shape := ⟨2, ![100000, 512]⟩
abbrev S512x512 : Shape := ⟨2, ![512, 512]⟩
abbrev S512 : Shape := ⟨1, ![512]⟩
abbrev S500000x1 : Shape := ⟨2, ![500000, 1]⟩
abbrev S_ : Shape := ⟨0, ![]⟩
abbrev S500000x512 : Shape := ⟨2, ![500000, 512]⟩
abbrev S25000x512 : Shape := ⟨2, ![25000, 512]⟩
abbrev S1x512 : Shape := ⟨2, ![1, 512]⟩
abbrev S25000x1 : Shape := ⟨2, ![25000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S500000, .i32⟩
  | .hbm, ⟨2, _⟩ => ⟨S500000, .i32⟩
  | .hbm, ⟨3, _⟩ => ⟨S500000, .f32⟩
  | .hbm, ⟨4, _⟩ => ⟨S25000, .i32⟩
  | .hbm, ⟨5, _⟩ => ⟨S100000x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S500000x1, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x512, .f32⟩
  | .hbm, ⟨20, _⟩ => ⟨S500000x512, .f32⟩
  | .hbm, ⟨21, _⟩ => ⟨S500000x512, .f32⟩
  | .hbm, ⟨22, _⟩ => ⟨S_, .f32⟩
  | .hbm, ⟨23, _⟩ => ⟨S25000x512, .f32⟩
  | .hbm, ⟨24, _⟩ => ⟨S500000x1, .i32⟩
  | .hbm, ⟨25, _⟩ => ⟨S25000x512, .f32⟩
  | .hbm, ⟨26, _⟩ => ⟨S25000x512, .f32⟩
  | .hbm, ⟨27, _⟩ => ⟨S1x512, .f32⟩
  | .hbm, ⟨28, _⟩ => ⟨S25000x512, .f32⟩
  | .hbm, ⟨29, _⟩ => ⟨S25000x512, .f32⟩
  | .hbm, ⟨30, _⟩ => ⟨S_, .f32⟩
  | .hbm, ⟨31, _⟩ => ⟨S25000x512, .f32⟩
  | .hbm, ⟨32, _⟩ => ⟨S25000x512, .f32⟩
  | .hbm, ⟨33, _⟩ => ⟨S_, .i32⟩
  | .hbm, ⟨34, _⟩ => ⟨S25000, .i32⟩
  | .hbm, ⟨35, _⟩ => ⟨S25000, .i1⟩
  | .hbm, ⟨36, _⟩ => ⟨S_, .i32⟩
  | .hbm, ⟨37, _⟩ => ⟨S25000, .i32⟩
  | .hbm, ⟨38, _⟩ => ⟨S25000, .i32⟩
  | .hbm, ⟨39, _⟩ => ⟨S25000, .i32⟩
  | .hbm, ⟨40, _⟩ => ⟨S25000x1, .i32⟩
  | .hbm, ⟨41, _⟩ => ⟨S25000x512, .f32⟩
  | .hbm, ⟨42, _⟩ => ⟨S_, .f32⟩
  | .hbm, ⟨43, _⟩ => ⟨S25000x512, .f32⟩
  | .hbm, ⟨44, _⟩ => ⟨S25000x512, .f32⟩
  | .hbm, ⟨45, _⟩ => ⟨S25000x512, .f32⟩
  | .hbm, ⟨46, _⟩ => ⟨S_, .f32⟩
  | .hbm, ⟨47, _⟩ => ⟨S25000x512, .f32⟩
  | .hbm, ⟨48, _⟩ => ⟨S25000x512, .i1⟩
  | .hbm, ⟨49, _⟩ => ⟨S_, .f32⟩
  | .hbm, ⟨50, _⟩ => ⟨S25000x512, .f32⟩
  | .hbm, ⟨51, _⟩ => ⟨S25000x512, .i1⟩
  | .hbm, ⟨52, _⟩ => ⟨S_, .f32⟩
  | .hbm, ⟨53, _⟩ => ⟨S_, .f32⟩
  | .hbm, ⟨54, _⟩ => ⟨S25000x512, .f32⟩
  | .hbm, ⟨55, _⟩ => ⟨S25000x512, .f32⟩
  | .hbm, ⟨56, _⟩ => ⟨S25000x512, .f32⟩
  | .hbm, ⟨57, _⟩ => ⟨S_, .f32⟩
  | .hbm, ⟨58, _⟩ => ⟨S25000x512, .f32⟩
  | .hbm, ⟨59, _⟩ => ⟨S25000x512, .f32⟩
  | .hbm, ⟨60, _⟩ => ⟨S25000x512, .f32⟩
  | .hbm, ⟨61, _⟩ => ⟨S_, .f32⟩
  | .hbm, ⟨62, _⟩ => ⟨S25000, .f32⟩
  | .hbm, ⟨63, _⟩ => ⟨S25000x1, .f32⟩
  | .hbm, ⟨64, _⟩ => ⟨S_, .f32⟩
  | .hbm, ⟨65, _⟩ => ⟨S25000x1, .f32⟩
  | .hbm, ⟨66, _⟩ => ⟨S25000x1, .f32⟩
  | .hbm, ⟨67, _⟩ => ⟨S_, .i32⟩
  | .hbm, ⟨68, _⟩ => ⟨S_, .f32⟩
  | .hbm, ⟨69, _⟩ => ⟨S25000, .f32⟩
  | .hbm, ⟨70, _⟩ => ⟨S25000x1, .f32⟩
  | .hbm, ⟨71, _⟩ => ⟨S_, .f32⟩
  | .hbm, ⟨72, _⟩ => ⟨S25000x1, .f32⟩
  | .hbm, ⟨73, _⟩ => ⟨S25000x1, .f32⟩
  | .hbm, ⟨74, _⟩ => ⟨S25000x512, .f32⟩
  | .hbm, ⟨75, _⟩ => ⟨S25000x512, .f32⟩
  | .hbm, ⟨76, _⟩ => ⟨S25000x512, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S25000, .f32⟩
  | .hbm, ⟨82, _⟩ => ⟨S25000x1, .f32⟩
  | .hbm, ⟨83, _⟩ => ⟨S25000x1, .f32⟩
  | .hbm, ⟨84, _⟩ => ⟨S25000x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S25000x1, .f32⟩
  | .hbm, ⟨90, _⟩ => ⟨S25000x1, .f32⟩
  | .hbm, ⟨91, _⟩ => ⟨S_, .f32⟩
  | .hbm, ⟨92, _⟩ => ⟨S25000x1, .f32⟩
  | .hbm, ⟨93, _⟩ => ⟨S25000x1, .f32⟩
  | .hbm, ⟨94, _⟩ => ⟨S25000x512, .f32⟩
  | .hbm, ⟨95, _⟩ => ⟨S25000x512, .f32⟩
  | .hbm, ⟨96, _⟩ => ⟨S1x512, .f32⟩
  | .hbm, ⟨97, _⟩ => ⟨S25000x512, .f32⟩
  | .hbm, ⟨98, _⟩ => ⟨S25000x512, .f32⟩
  | .hbm, ⟨99, _⟩ => ⟨S25000x1, .f32⟩
  | .hbm, ⟨100, _⟩ => ⟨S25000x512, .f32⟩
  | .hbm, ⟨101, _⟩ => ⟨S25000x512, .f32⟩
  | .hbm, ⟨102, _⟩ => ⟨S1x512, .f32⟩
  | .hbm, ⟨103, _⟩ => ⟨S25000x512, .f32⟩
  | .hbm, ⟨104, _⟩ => ⟨S25000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v34 : Ref sig .tc := ⟨.hbm, 90, rfl⟩
abbrev main_cst_8 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x512_0_1 : S500000x1.BroadcastsInDim S500000x512 (![0, 1] : Fin 2 → Fin S500000x512.rank)
  bcast_S_S25000x512 : S_.BroadcastsInDim S25000x512 (![] : Fin 0 → Fin S25000x512.rank)
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  reducesTo_S25000x512_S25000_d1 : S25000x512.ReducesTo [1] S25000
  h_S_ : 0 < S_.numel
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  gather_S50000x512_S500000x1_S500000x512_1_0_n_n_0_1_1512_wf : GatherDims.WF S50000x512 S500000x1 S500000x512 [1] [0] [] [0] [] 1 ![1, 512]
  scatter_S25000x512_S500000x1_S500000x512_1_0_0_1_wf : ScatterDims.WF S25000x512 S500000x1 S500000x512 [1] [0] [0] 1
  dot_S25000x512_S512x512_S25000x512_1_0_0_1_n_n_wf : DotDims.WF S25000x512 S512x512 S25000x512 [1] [0] [0] [1] [] []
  gather_S100000x512_S25000x1_S25000x512_1_0_n_n_0_1_1512_wf : GatherDims.WF S100000x512 S25000x1 S25000x512 [1] [0] [] [0] [] 1 ![1, 512]

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S100000x512_S25000x1_S25000x512_1_0_n_n_0_1_1512 : GatherDims S100000x512 S25000x1 S25000x512 where
  offsetDims := [1]
  collapsedSliceDims := [0]
  operandBatchingDims := []
  startIndicesBatchingDims := []
  startIndexMap := [0]
  indexVectorDim := 1
  sliceSizes := ![1, 512]
  wf := gather_S100000x512_S25000x1_S25000x512_1_0_n_n_0_1_1512_wf

class Facts : Prop extends Facts₀ where

variable [Facts]
-- ==== Proof.RefTerm.lean ====
/-
  The reference's @main as one pure function of its ten arguments, written once so that its run and its value at an
  index are stated over the same term.

  The first stretch is the sparse aggregation and the gather of the embedding buffer, which the other program performs
  with the very same host operations: it is kept as two opaque functions, `hostAgg` and `hostSel`, and never opened.
  The rest is cut along the mathematics: the linear layer and momentum mix (`refMix`), the exponential linear unit in
  its `expm1` spelling (`refElu`), the row mean (`refMean`), the row variance plus ε with its guarded divisor
  (`refVarEps`), and the normalisation with scale and offset (`refNorm`).
-/
import proofs.«114485_j5334349382168_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The contents of an f32 buffer of shape `s`. -/
abbrev CFv (F : FTy → Type) (s : Shape) : Type := (⟨s, .f32⟩ : BufTy).Contents (Elt F)
/-- The contents of an i32 buffer of shape `s`. -/
abbrev CIv (F : FTy → Type) (s : Shape) : Type := (⟨s, .i32⟩ : BufTy).Contents (Elt F)

/-- The aggregated messages: edge `e` carries `vals e` times row `cols e` of `x` (a negative column index counted from
    the end), and the edges are summed into the rows `rows e` of an all-zero 25000 × 512 array. -/
def hostAgg (x : (CFv F S50000x512)) (rows cols : (CIv F S500000)) (vals : (CFv F S500000)) : (CFv F S25000x512) :=
  Host.scatterAdd scatter_S25000x512_S500000x1_S500000x512_1_0_0_1
    (broadcastInDim S25000x512 ![] bcast_S_S25000x512 (constant S_ .f32 0x00000000#32))
    (broadcastInDim S500000x1 ![0] bcast_S500000_S500000x1_0 rows)
    (mulf (broadcastInDim S500000x512 ![0, 1] bcast_S500000x1_S500000x512_0_1 (broadcastInDim S500000x1 ![0] bcast_S500000_S500000x1_0 vals))
      (Host.gather gather_S50000x512_S500000x1_S500000x512_1_0_n_n_0_1_1512 x
        (broadcastInDim S500000x1 ![0] bcast_S500000_S500000x1_0
          (select (cmpi .slt cols (broadcastInDim S500000 ![] bcast_S_S500000 (constantI S_ 32 0#32)))
            (addi cols (broadcastInDim S500000 ![] bcast_S_S500000 (constantI S_ 32 50000#32))) cols))))

/-- The rows of the embedding buffer at the sampled nodes (a negative node index counted from the end). -/
def hostSel (ybuf : (CFv F S100000x512)) (nodes : (CIv F S25000)) : (CFv F S25000x512) :=
  Host.gather gather_S100000x512_S25000x1_S25000x512_1_0_n_n_0_1_1512 ybuf
    (broadcastInDim S25000x1 ![0] bcast_S25000_S25000x1_0
      (select (cmpi .slt nodes (broadcastInDim S25000 ![] bcast_S_S25000 (constantI S_ 32 0#32)))
        (addi nodes (broadcastInDim S25000 ![] bcast_S_S25000 (constantI S_ 32 100000#32))) nodes))

/-- The linear layer `agg · W + b` followed by the momentum mix with the gathered rows. -/
def refMix (agg ysel : (CFv F S25000x512)) (W : (CFv F S512x512)) (b : (CFv F S512)) : (CFv F S25000x512) :=
  addf
    (mulf (broadcastInDim S25000x512 ![] bcast_S_S25000x512 (constant S_ .f32 0x3F666666#32))
      (addf (Host.dotGeneral dot_S25000x512_S512x512_S25000x512_1_0_0_1_n_n none agg W)
        (broadcastInDim S25000x512 ![0, 1] bcast_S1x512_S25000x512_0_1 (broadcastInDim S1x512 ![1] bcast_S512_S1x512_1 b))))
    (mulf (broadcastInDim S25000x512 ![] bcast_S_S25000x512 (constant S_ .f32 0x3DCCCCCD#32)) ysel)

/-- The exponential linear unit as the reference spells it: `x` where `x > 0`, elsewhere `1 · expm1 z` with `z` the
    input where it is not positive and 0 where it is. -/
def refElu (x : (CFv F S25000x512)) : (CFv F S25000x512) :=
  select (cmpf .ogt x (broadcastInDim S25000x512 ![] bcast_S_S25000x512 (constant S_ .f32 0x00000000#32))) x
    (mulf (broadcastInDim S25000x512 ![] bcast_S_S25000x512 (constant S_ .f32 0x3F800000#32))
      (Host.expm1
        (select (cmpf .ogt x (broadcastInDim S25000x512 ![] bcast_S_S25000x512 (constant S_ .f32 0x00000000#32)))
          (broadcastInDim S25000x512 ![] bcast_S_S25000x512 (id (constant S_ .f32 0x00000000#32))) x)))

/-- The row means, as a column. -/
def refMean (e : (CFv F S25000x512)) : (CFv F S25000x1) :=
  Host.divf
    (broadcastInDim S25000x1 ![0] bcast_S25000_S25000x1_0
      (Host.reduceAdd e (constant S_ .f32 0x00000000#32) reducesTo_S25000x512_S25000_d1 h_S_))
    (broadcastInDim S25000x1 ![] bcast_S_S25000x1 (constant S_ .f32 0x44000000#32))

/-- The divisor of the variance: 512 less the (integer) number of degrees of freedom given up, here 0. -/
def refDenom : (CFv F S_) :=
  subf (constant S_ .f32 0x44000000#32) (sitofp .f32 (constantI S_ 32 0#32))

/-- The row variances plus ε, as a column: the squares of the centred row summed and divided by `refDenom` where that
    is positive (a quiet NaN word elsewhere). -/
def refVarEps (e : (CFv F S25000x512)) : (CFv F S25000x1) :=
  addf
    (select (broadcastInDim S25000x1 ![] bcast_S_S25000x1 (cmpf .ogt (refDenom (F := F)) (constant S_ .f32 0x00000000#32)))
      (Host.divf
        (broadcastInDim S25000x1 ![0] bcast_S25000_S25000x1_0
          (Host.reduceAdd
            (mulf (subf e (broadcastInDim S25000x512 ![0, 1] bcast_S25000x1_S25000x512_0_1 (refMean e)))
              (subf e (broadcastInDim S25000x512 ![0, 1] bcast_S25000x1_S25000x512_0_1 (refMean e))))
            (constant S_ .f32 0x00000000#32) reducesTo_S25000x512_S25000_d1 h_S_))
        (broadcastInDim S25000x1 ![] bcast_S_S25000x1 (refDenom (F := F))))
      (broadcastInDim S25000x1 ![] bcast_S_S25000x1 (id (constant S_ .f32 0x7FC00000#32))))
    (broadcastInDim S25000x1 ![] bcast_S_S25000x1 (constant S_ .f32 0x3089705F#32))

/-- The normalisation: the centred rows times the scale, times the inverse square root of the variance plus ε, plus
    the offset. -/
def refNorm (e : (CFv F S25000x512)) (s o : (CFv F S512)) : (CFv F S25000x512) :=
  addf
    (mulf
      (mulf (subf e (broadcastInDim S25000x512 ![0, 1] bcast_S25000x1_S25000x512_0_1 (refMean e)))
        (broadcastInDim S25000x512 ![0, 1] bcast_S1x512_S25000x512_0_1 (broadcastInDim S1x512 ![1] bcast_S512_S1x512_1 s)))
      (broadcastInDim S25000x512 ![0, 1] bcast_S25000x1_S25000x512_0_1 (Host.rsqrt (refVarEps e))))
    (broadcastInDim S25000x512 ![0, 1] bcast_S1x512_S25000x512_0_1 (broadcastInDim S1x512 ![1] bcast_S512_S1x512_1 o))

/-- Everything after the shared first stretch, as a function of the aggregated messages and the gathered rows. -/
def refTail (agg ysel : (CFv F S25000x512)) (W : (CFv F S512x512)) (b s o : (CFv F S512)) : (CFv F S25000x512) :=
  refNorm (refElu (refMix agg ysel W b)) s o

/-- The reference's result as a function of its ten arguments. -/
def refOut (x : (CFv F S50000x512)) (rows cols : (CIv F S500000)) (vals : (CFv F S500000)) (nodes : (CIv F S25000))
    (ybuf : (CFv F S100000x512)) (W : (CFv F S512x512)) (b s o : (CFv F S512)) : (CFv F S25000x512) :=
  refTail (hostAgg x rows cols vals) (hostSel ybuf nodes) W b s o

end Cert.ReferenceIdeal.RefTerm

end
-- ==== Proof.RefRun.lean ====
import proofs.«114485_j5334349382168_1_alg».proof.Proof.Gen.ReferenceIdeal
import proofs.«114485_j5334349382168_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program as one straight line: @main's operations in the printed order, each outlined function's
    operations written at its call over that call's buffers (the exponential linear unit with its two selects, the
    variance with its select). -/
abbrev ops : List (HloOp τ sig (Elt F)) :=
  [ unary main_arg3 main_v0 (broadcastInDim S500000x1 ![0] bcast_S500000_S500000x1_0 : (⟨S500000, .f32⟩ : BufTy).Contents (Elt F) → (⟨S500000x1, .f32⟩ : BufTy).Contents (Elt F)),
    nullary main_c (constantI S_ 32 0#32),
    unary main_c main_v1 (broadcastInDim S500000 ![] bcast_S_S500000 : (⟨S_, .i32⟩ : BufTy).Contents (Elt F) → (⟨S500000, .i32⟩ : BufTy).Contents (Elt F)),
    binary main_arg2 main_v1 main_v2 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v3 (broadcastInDim S500000 ![] bcast_S_S500000 : (⟨S_, .i32⟩ : BufTy).Contents (Elt F) → (⟨S500000, .i32⟩ : BufTy).Contents (Elt F)),
    binary main_arg2 main_v3 main_v4 (addi : (⟨S500000, .i32⟩ : BufTy).Contents (Elt F) → (⟨S500000, .i32⟩ : BufTy).Contents (Elt F) → (⟨S500000, .i32⟩ : BufTy).Contents (Elt F)),
    ternary main_v2 main_v4 main_arg2 main_v5 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v5 main_v6 (broadcastInDim S500000x1 ![0] bcast_S500000_S500000x1_0 : (⟨S500000, .i32⟩ : BufTy).Contents (Elt F) → (⟨S500000x1, .i32⟩ : BufTy).Contents (Elt F)),
    binary main_arg0 main_v6 main_v7 ((fun x i => Host.gather gather_S50000x512_S500000x1_S500000x512_1_0_n_n_0_1_1512 x i) : (⟨S50000x512, .f32⟩ : BufTy).Contents (Elt F) → (⟨S500000x1, .i32⟩ : BufTy).Contents (Elt F) → (⟨S500000x512, .f32⟩ : BufTy).Contents (Elt F)),
    unary main_v0 main_v8 (broadcastInDim S500000x512 ![0, 1] bcast_S500000x1_S500000x512_0_1 : (⟨S500000x1, .f32⟩ : BufTy).Contents (Elt F) → (⟨S500000x512, .f32⟩ : BufTy).Contents (Elt F)),
    binary main_v8 main_v7 main_v9 (mulf : (⟨S500000x512, .f32⟩ : BufTy).Contents (Elt F) → (⟨S500000x512, .f32⟩ : BufTy).Contents (Elt F) → (⟨S500000x512, .f32⟩ : BufTy).Contents (Elt F)),
    nullary main_cst (constant S_ .f32 0x00000000#32),
    unary main_cst main_v10 (broadcastInDim S25000x512 ![] bcast_S_S25000x512 : (⟨S_, .f32⟩ : BufTy).Contents (Elt F) → (⟨S25000x512, .f32⟩ : BufTy).Contents (Elt F)),
    unary main_arg1 main_v11 (broadcastInDim S500000x1 ![0] bcast_S500000_S500000x1_0 : (⟨S500000, .i32⟩ : BufTy).Contents (Elt F) → (⟨S500000x1, .i32⟩ : BufTy).Contents (Elt F)),
    ternary main_v10 main_v11 main_v9 main_v12 ((fun x i u => Host.scatterAdd scatter_S25000x512_S500000x1_S500000x512_1_0_0_1 x i u) : (⟨S25000x512, .f32⟩ : BufTy).Contents (Elt F) → (⟨S500000x1, .i32⟩ : BufTy).Contents (Elt F) → (⟨S500000x512, .f32⟩ : BufTy).Contents (Elt F) → (⟨S25000x512, .f32⟩ : BufTy).Contents (Elt F)),
    binary main_v12 main_arg6 main_v13 ((fun l r => Host.dotGeneral dot_S25000x512_S512x512_S25000x512_1_0_0_1_n_n none l r) : (⟨S25000x512, .f32⟩ : BufTy).Contents (Elt F) → (⟨S512x512, .f32⟩ : BufTy).Contents (Elt F) → (⟨S25000x512, .f32⟩ : BufTy).Contents (Elt F)),
    unary main_arg7 main_v14 (broadcastInDim S1x512 ![1] bcast_S512_S1x512_1 : (⟨S512, .f32⟩ : BufTy).Contents (Elt F) → (⟨S1x512, .f32⟩ : BufTy).Contents (Elt F)),
    unary main_v14 main_v15 (broadcastInDim S25000x512 ![0, 1] bcast_S1x512_S25000x512_0_1 : (⟨S1x512, .f32⟩ : BufTy).Contents (Elt F) → (⟨S25000x512, .f32⟩ : BufTy).Contents (Elt F)),
    binary main_v13 main_v15 main_v16 (addf : (⟨S25000x512, .f32⟩ : BufTy).Contents (Elt F) → (⟨S25000x512, .f32⟩ : BufTy).Contents (Elt F) → (⟨S25000x512, .f32⟩ : BufTy).Contents (Elt F)),
    nullary main_cst_1 (constant S_ .f32 0x3F666666#32),
    unary main_cst_1 main_v17 (broadcastInDim S25000x512 ![] bcast_S_S25000x512 : (⟨S_, .f32⟩ : BufTy).Contents (Elt F) → (⟨S25000x512, .f32⟩ : BufTy).Contents (Elt F)),
    binary main_v17 main_v16 main_v18 (mulf : (⟨S25000x512, .f32⟩ : BufTy).Contents (Elt F) → (⟨S25000x512, .f32⟩ : BufTy).Contents (Elt F) → (⟨S25000x512, .f32⟩ : BufTy).Contents (Elt F)),
    nullary main_c_2 (constantI S_ 32 0#32),
    unary main_c_2 main_v19 (broadcastInDim S25000 ![] bcast_S_S25000 : (⟨S_, .i32⟩ : BufTy).Contents (Elt F) → (⟨S25000, .i32⟩ : BufTy).Contents (Elt F)),
    binary main_arg4 main_v19 main_v20 (cmpi .slt : (⟨S25000, .i32⟩ : BufTy).Contents (Elt F) → (⟨S25000, .i32⟩ : BufTy).Contents (Elt F) → (⟨S25000, .i1⟩ : BufTy).Contents (Elt F)),
    nullary main_c_3 (constantI S_ 32 100000#32),
    unary main_c_3 main_v21 (broadcastInDim S25000 ![] bcast_S_S25000 : (⟨S_, .i32⟩ : BufTy).Contents (Elt F) → (⟨S25000, .i32⟩ : BufTy).Contents (Elt F)),
    binary main_arg4 main_v21 main_v22 (addi : (⟨S25000, .i32⟩ : BufTy).Contents (Elt F) → (⟨S25000, .i32⟩ : BufTy).Contents (Elt F) → (⟨S25000, .i32⟩ : BufTy).Contents (Elt F)),
    ternary main_v20 main_v22 main_arg4 main_v23 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v23 main_v24 (broadcastInDim S25000x1 ![0] bcast_S25000_S25000x1_0 : (⟨S25000, .i32⟩ : BufTy).Contents (Elt F) → (⟨S25000x1, .i32⟩ : BufTy).Contents (Elt F)),
    binary main_arg5 main_v24 main_v25 ((fun x i => Host.gather gather_S100000x512_S25000x1_S25000x512_1_0_n_n_0_1_1512 x i) : (⟨S100000x512, .f32⟩ : BufTy).Contents (Elt F) → (⟨S25000x1, .i32⟩ : BufTy).Contents (Elt F) → (⟨S25000x512, .f32⟩ : BufTy).Contents (Elt F)),
    nullary main_cst_4 (constant S_ .f32 0x3DCCCCCD#32),
    unary main_cst_4 main_v26 (broadcastInDim S25000x512 ![] bcast_S_S25000x512 : (⟨S_, .f32⟩ : BufTy).Contents (Elt F) → (⟨S25000x512, .f32⟩ : BufTy).Contents (Elt F)),
    binary main_v26 main_v25 main_v27 (mulf : (⟨S25000x512, .f32⟩ : BufTy).Contents (Elt F) → (⟨S25000x512, .f32⟩ : BufTy).Contents (Elt F) → (⟨S25000x512, .f32⟩ : BufTy).Contents (Elt F)),
    binary main_v18 main_v27 main_v28 (addf : (⟨S25000x512, .f32⟩ : BufTy).Contents (Elt F) → (⟨S25000x512, .f32⟩ : BufTy).Contents (Elt F) → (⟨S25000x512, .f32⟩ : BufTy).Contents (Elt F)),
    TRef.nullary main_call0.cst (constant S_ .f32 0x00000000#32),
    TRef.unary main_call0.cst main_call0.v0 (broadcastInDim S25000x512 ![] bcast_S_S25000x512),
    TRef.binary (.of main_v28) main_call0.v0 main_call0.v1 (cmpf .ogt),
    TRef.nullary main_call0.cst_0 (constant S_ .f32 0x00000000#32),
    TRef.unary main_call0.cst_0 main_call0.v2 (broadcastInDim S25000x512 ![] bcast_S_S25000x512),
    TRef.binary (.of main_v28) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S25000x512 ![] bcast_S_S25000x512),
    TRef.ternary main_call0.v3 main_call0.call0.v1 (.of main_v28) main_call0.call0.v2 select,
    TRef.unary main_call0.call0.v2 main_call0.v5 Host.expm1,
    TRef.nullary main_call0.cst_2 (constant S_ .f32 0x3F800000#32),
    TRef.unary main_call0.cst_2 main_call0.v6 (broadcastInDim S25000x512 ![] bcast_S_S25000x512),
    TRef.binary main_call0.v6 main_call0.v5 main_call0.v7 mulf,
    TRef.ternary main_call0.v1 (.of main_v28) main_call0.v7 main_call0.call1.v0 select,
    nullary main_cst_5 (constant S_ .f32 0x00000000#32),
    binary main_v29 main_cst_5 main_v30 ((fun x v => Host.reduceAdd x v reducesTo_S25000x512_S25000_d1 h_S_) : (⟨S25000x512, .f32⟩ : BufTy).Contents (Elt F) → (⟨S_, .f32⟩ : BufTy).Contents (Elt F) → (⟨S25000, .f32⟩ : BufTy).Contents (Elt F)),
    unary main_v30 main_v31 (broadcastInDim S25000x1 ![0] bcast_S25000_S25000x1_0 : (⟨S25000, .f32⟩ : BufTy).Contents (Elt F) → (⟨S25000x1, .f32⟩ : BufTy).Contents (Elt F)),
    nullary main_cst_6 (constant S_ .f32 0x44000000#32),
    unary main_cst_6 main_v32 (broadcastInDim S25000x1 ![] bcast_S_S25000x1 : (⟨S_, .f32⟩ : BufTy).Contents (Elt F) → (⟨S25000x1, .f32⟩ : BufTy).Contents (Elt F)),
    binary main_v31 main_v32 main_v33 (Host.divf : (⟨S25000x1, .f32⟩ : BufTy).Contents (Elt F) → (⟨S25000x1, .f32⟩ : BufTy).Contents (Elt F) → (⟨S25000x1, .f32⟩ : BufTy).Contents (Elt F)),
    nullary main_c_7 (constantI S_ 32 0#32),
    TRef.nullary main_call1.cst (constant S_ .f32 0x00000000#32),
    TRef.binary (.of main_v29) main_call1.cst main_call1.v0 (fun x v => Host.reduceAdd x v reducesTo_S25000x512_S25000_d1 h_S_),
    TRef.unary main_call1.v0 main_call1.v1 (broadcastInDim S25000x1 ![0] bcast_S25000_S25000x1_0),
    TRef.nullary main_call1.cst_0 (constant S_ .f32 0x44000000#32),
    TRef.unary main_call1.cst_0 main_call1.v2 (broadcastInDim S25000x1 ![] bcast_S_S25000x1),
    TRef.binary main_call1.v1 main_call1.v2 main_call1.v3 Host.divf,
    TRef.unary main_call1.v3 main_call1.v4 (broadcastInDim S25000x512 ![0, 1] bcast_S25000x1_S25000x512_0_1),
    TRef.binary (.of main_v29) main_call1.v4 main_call1.v5 subf,
    TRef.binary main_call1.v5 main_call1.v5 main_call1.v6 mulf,
    TRef.unary (.of main_c_7) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S25000x512_S25000_d1 h_S_),
    TRef.unary main_call1.v9 main_call1.v10 (broadcastInDim S25000x1 ![0] bcast_S25000_S25000x1_0),
    TRef.unary main_call1.v8 main_call1.v11 (broadcastInDim S25000x1 ![] bcast_S_S25000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S25000x1 ![] bcast_S_S25000x1),
    TRef.ternary main_call1.v13 main_call1.v12 main_call1.call0.v1 main_call1.call0.v2 (fun p a b => select (broadcastInDim S25000x1 ![] bcast_S_S25000x1 p) a b),
    nullary main_cst_8 (constant S_ .f32 0x3089705F#32),
    unary main_cst_8 main_v35 (broadcastInDim S25000x1 ![] bcast_S_S25000x1 : (⟨S_, .f32⟩ : BufTy).Contents (Elt F) → (⟨S25000x1, .f32⟩ : BufTy).Contents (Elt F)),
    binary main_v34 main_v35 main_v36 (addf : (⟨S25000x1, .f32⟩ : BufTy).Contents (Elt F) → (⟨S25000x1, .f32⟩ : BufTy).Contents (Elt F) → (⟨S25000x1, .f32⟩ : BufTy).Contents (Elt F)),
    unary main_v33 main_v37 (broadcastInDim S25000x512 ![0, 1] bcast_S25000x1_S25000x512_0_1 : (⟨S25000x1, .f32⟩ : BufTy).Contents (Elt F) → (⟨S25000x512, .f32⟩ : BufTy).Contents (Elt F)),
    binary main_v29 main_v37 main_v38 (subf : (⟨S25000x512, .f32⟩ : BufTy).Contents (Elt F) → (⟨S25000x512, .f32⟩ : BufTy).Contents (Elt F) → (⟨S25000x512, .f32⟩ : BufTy).Contents (Elt F)),
    unary main_arg8 main_v39 (broadcastInDim S1x512 ![1] bcast_S512_S1x512_1 : (⟨S512, .f32⟩ : BufTy).Contents (Elt F) → (⟨S1x512, .f32⟩ : BufTy).Contents (Elt F)),
    unary main_v39 main_v40 (broadcastInDim S25000x512 ![0, 1] bcast_S1x512_S25000x512_0_1 : (⟨S1x512, .f32⟩ : BufTy).Contents (Elt F) → (⟨S25000x512, .f32⟩ : BufTy).Contents (Elt F)),
    binary main_v38 main_v40 main_v41 (mulf : (⟨S25000x512, .f32⟩ : BufTy).Contents (Elt F) → (⟨S25000x512, .f32⟩ : BufTy).Contents (Elt F) → (⟨S25000x512, .f32⟩ : BufTy).Contents (Elt F)),
    unary main_v36 main_v42 (Host.rsqrt : (⟨S25000x1, .f32⟩ : BufTy).Contents (Elt F) → (⟨S25000x1, .f32⟩ : BufTy).Contents (Elt F)),
    unary main_v42 main_v43 (broadcastInDim S25000x512 ![0, 1] bcast_S25000x1_S25000x512_0_1 : (⟨S25000x1, .f32⟩ : BufTy).Contents (Elt F) → (⟨S25000x512, .f32⟩ : BufTy).Contents (Elt F)),
    binary main_v41 main_v43 main_v44 (mulf : (⟨S25000x512, .f32⟩ : BufTy).Contents (Elt F) → (⟨S25000x512, .f32⟩ : BufTy).Contents (Elt F) → (⟨S25000x512, .f32⟩ : BufTy).Contents (Elt F)),
    unary main_arg9 main_v45 (broadcastInDim S1x512 ![1] bcast_S512_S1x512_1 : (⟨S512, .f32⟩ : BufTy).Contents (Elt F) → (⟨S1x512, .f32⟩ : BufTy).Contents (Elt F)),
    unary main_v45 main_v46 (broadcastInDim S25000x512 ![0, 1] bcast_S1x512_S25000x512_0_1 : (⟨S1x512, .f32⟩ : BufTy).Contents (Elt F) → (⟨S25000x512, .f32⟩ : BufTy).Contents (Elt F)),
    binary main_v44 main_v46 main_v47 (addf : (⟨S25000x512, .f32⟩ : BufTy).Contents (Elt F) → (⟨S25000x512, .f32⟩ : BufTy).Contents (Elt F) → (⟨S25000x512, .f32⟩ : BufTy).Contents (Elt F)) ]

set_option maxRecDepth 8192 in
/-- @main is that straight line: the functions' definitions unfold at their calls and sequencing reassociates, all by
    computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.gather Host.scatterAdd in
set_option maxRecDepth 8192 in
set_option maxHeartbeats 1600000 in
/-- The fold at the result buffer is the reference term of the arguments' contents: each operation's result read at its
    own buffer is its function of its operands' contents, and the composed term is `RefTerm.refOut` unfolded (the sums,
    the gathers and the scatter are kept folded meanwhile: the equation never looks inside them). -/
theorem out_eq (V : Valuation τ sig (Elt F)) :
    after ops V (main_v47 : DevRef τ sig) = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

set_option maxHeartbeats 1600000 in
/-- No operation writes argument 0's buffer. -/
theorem arg0_eq (V : Valuation τ sig (Elt F)) :
    after ops V (main_arg0 : DevRef τ sig) = V (main_arg0 : DevRef τ sig) := by
  after_results_simp

set_option maxHeartbeats 1600000 in
/-- No operation writes argument 1's buffer. -/
theorem arg1_eq (V : Valuation τ sig (Elt F)) :
    after ops V (main_arg1 : DevRef τ sig) = V (main_arg1 : DevRef τ sig) := by
  after_results_simp

set_option maxHeartbeats 1600000 in
/-- No operation writes argument 2's buffer. -/
theorem arg2_eq (V : Valuation τ sig (Elt F)) :
    after ops V (main_arg2 : DevRef τ sig) = V (main_arg2 : DevRef τ sig) := by
  after_results_simp

set_option maxHeartbeats 1600000 in
/-- No operation writes argument 3's buffer. -/
theorem arg3_eq (V : Valuation τ sig (Elt F)) :
    after ops V (main_arg3 : DevRef τ sig) = V (main_arg3 : DevRef τ sig) := by
  after_results_simp

set_option maxHeartbeats 1600000 in
/-- No operation writes argument 4's buffer. -/
theorem arg4_eq (V : Valuation τ sig (Elt F)) :
    after ops V (main_arg4 : DevRef τ sig) = V (main_arg4 : DevRef τ sig) := by
  after_results_simp

set_option maxHeartbeats 1600000 in
/-- No operation writes argument 5's buffer. -/
theorem arg5_eq (V : Valuation τ sig (Elt F)) :
    after ops V (main_arg5 : DevRef τ sig) = V (main_arg5 : DevRef τ sig) := by
  after_results_simp

set_option maxHeartbeats 1600000 in
/-- No operation writes argument 6's buffer. -/
theorem arg6_eq (V : Valuation τ sig (Elt F)) :
    after ops V (main_arg6 : DevRef τ sig) = V (main_arg6 : DevRef τ sig) := by
  after_results_simp

set_option maxHeartbeats 1600000 in
/-- No operation writes argument 7's buffer. -/
theorem arg7_eq (V : Valuation τ sig (Elt F)) :
    after ops V (main_arg7 : DevRef τ sig) = V (main_arg7 : DevRef τ sig) := by
  after_results_simp

set_option maxHeartbeats 1600000 in
/-- No operation writes argument 8's buffer. -/
theorem arg8_eq (V : Valuation τ sig (Elt F)) :
    after ops V (main_arg8 : DevRef τ sig) = V (main_arg8 : DevRef τ sig) := by
  after_results_simp

set_option maxHeartbeats 1600000 in
/-- No operation writes argument 9's buffer. -/
theorem arg9_eq (V : Valuation τ sig (Elt F)) :
    after ops V (main_arg9 : DevRef τ sig) = V (main_arg9 : DevRef τ sig) := by
  after_results_simp

/-- On every device, for any float values, from any memory with zero counters: every weakly fair execution of @main
    terminates with the result buffer at the reference term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v47).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefRun

end
-- ==== Proof.RowSpec.lean ====
/-
  One row of the layer, over the extended reals.

  A row of the result depends on one row `a` of the aggregated messages (512 entries), the matching row `y` of the
  gathered embedding buffer, the whole weight matrix `W` and the three length-512 vectors `b` (bias), `s` (scale) and
  `o` (offset):

      feat q = (∑ k, a k · W k q) + b q                  the linear layer
      f q    = c₉ · feat q + c₁ · y q                    the momentum mix (c₉, c₁ the f32 words nearest 0.9 and 0.1)
      e q    = f q            if f q > 0                 the exponential linear unit
               exp (f q) − 1  otherwise
      μ      = (∑ q, e q) / 512                          the row mean
      d q    = e q − μ                                   the centred row
      v      = (∑ q, d q · d q) / 512 + ε                the (biased) row variance plus ε (the f32 word nearest 1e-9)
      out q  = d q · s q · v^(-1/2) + o q

  Every constant is kept as the f32 word it is printed with; both programs print the same words, so none is evaluated
  except the words for 0, 1 and 512 where an identity of the extended reals needs their values.
-/
import Idealize.ShloMosaic.PureOps.Ideal
import Idealize.ShloMosaic.PureOps.Ideal.Laws
import Idealize.ShloMosaic.Lib.ValueIdx

noncomputable section

open scoped BigOperators

namespace Cert.RowSpec

open Idealize.ShloMosaic Idealize.ShloMosaic.ValueIdx

/-- The f32 word nearest 0.9, at its exact value. -/
abbrev w9 : EReal := Ideal.ofBits .f32 0x3F666666#32
/-- The f32 word nearest 0.1, at its exact value. -/
abbrev w1 : EReal := Ideal.ofBits .f32 0x3DCCCCCD#32
/-- The f32 word nearest 1e-9, at its exact value. -/
abbrev wEps : EReal := Ideal.ofBits .f32 0x3089705F#32
/-- The f32 word of 512. -/
abbrev w512 : EReal := Ideal.ofBits .f32 0x44000000#32
/-- The f32 word of 1. -/
abbrev wOne : EReal := Ideal.ofBits .f32 0x3F800000#32
/-- The f32 word of 0. -/
abbrev wZero : EReal := Ideal.ofBits .f32 0x00000000#32

/-- The linear layer followed by the momentum mix, at column `q` of one row. -/
def mixRow (a y : Fin 512 → EReal) (W : Fin 512 → Fin 512 → EReal) (b : Fin 512 → EReal) (q : Fin 512) : EReal :=
  w9 * ((∑ k : Fin 512, a k * W k q) + b q) + w1 * y q

/-- The exponential linear unit: `x` where `x > 0`, `exp x − 1` elsewhere. -/
def elu (x : EReal) : EReal := Scalar.select (Ideal.cmp .ogt x wZero) x (Ideal.exp x - wOne)

/-- The activated row. -/
def actRow (a y : Fin 512 → EReal) (W : Fin 512 → Fin 512 → EReal) (b : Fin 512 → EReal) (q : Fin 512) : EReal :=
  elu (mixRow a y W b q)

/-- The mean of a row of 512 entries. -/
def meanRow (e : Fin 512 → EReal) : EReal := Ideal.div (∑ q : Fin 512, e q) w512

/-- A row with its mean taken off. -/
def cenRow (e : Fin 512 → EReal) (q : Fin 512) : EReal := e q - meanRow e

/-- The biased variance of a row, plus ε. -/
def varRow (e : Fin 512 → EReal) : EReal := Ideal.div (∑ q : Fin 512, cenRow e q * cenRow e q) w512 + wEps

/-- One row of the result. -/
def rowOut (a y : Fin 512 → EReal) (W : Fin 512 → Fin 512 → EReal) (b s o : Fin 512 → EReal) (q : Fin 512) : EReal :=
  cenRow (actRow a y W b) q * s q * Ideal.rsqrt (varRow (actRow a y W b)) + o q

/-- The whole result, entry (r, q): row `r` of the aggregated messages and of the gathered buffer go through `rowOut`. -/
def G (agg ysel : (⟨2, ![25000, 512]⟩ : Shape).Idx → EReal) (W : (⟨2, ![512, 512]⟩ : Shape).Idx → EReal)
    (b s o : (⟨1, ![512]⟩ : Shape).Idx → EReal) : (⟨2, ![25000, 512]⟩ : Shape).Idx → EReal :=
  fun i => rowOut (fun k => agg (ix2 (i 0) k)) (fun k => ysel (ix2 (i 0) k)) (fun k q => W (ix2 k q))
    (fun q => b (ix1 q)) (fun q => s (ix1 q)) (fun q => o (ix1 q)) (i 1)

theorem G_apply (agg ysel : (⟨2, ![25000, 512]⟩ : Shape).Idx → EReal) (W : (⟨2, ![512, 512]⟩ : Shape).Idx → EReal)
    (b s o : (⟨1, ![512]⟩ : Shape).Idx → EReal) (r : Fin 25000) (q : Fin 512) :
    G agg ysel W b s o (ix2 r q) = rowOut (fun k => agg (ix2 r k)) (fun k => ysel (ix2 r k)) (fun k q => W (ix2 k q))
      (fun q => b (ix1 q)) (fun q => s (ix1 q)) (fun q => o (ix1 q)) q := rfl

/-! ## The values of three words -/

theorem wZero_eq : wZero = 0 := Ideal.ofBits_zero_f32

theorem wOne_eq : wOne = 1 := by
  show Ideal.ofBits .f32 0x3F800000#32 = 1
  simp [Ideal.ofBits, Ideal.ieee, -EReal.coe_mul]; norm_num

theorem w512_eq : w512 = ((512 : ℝ) : EReal) := by
  show Ideal.ofBits .f32 0x44000000#32 = _
  simp [Ideal.ofBits, Ideal.ieee, -EReal.coe_mul]; norm_num

/-! ## The unit written with `expm1`

The other spelling of the unit: `x` where `x > 0`, and elsewhere `1 · (exp z − 1)` with `z` the input where it is not
positive (and 0 where it is, a value that is then never used). -/

theorem elu_expm1 (x : EReal) :
    Scalar.select (Ideal.cmp .ogt x wZero) x
      (wOne * (Ideal.exp (Scalar.select (Ideal.cmp .ogt x wZero) wZero x) - 1)) = elu x := by
  unfold elu
  by_cases h : Ideal.cmp .ogt x wZero = 1#1
  · rw [h, select_one, select_one]
  · rw [eq_zero_of_ne_one h, select_zero, select_zero, select_zero, wOne_eq, one_mul]

end Cert.RowSpec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.RefRow.lean ====
import proofs.«114485_j5334349382168_1_alg».proof.Proof.RefTerm
import proofs.«114485_j5334349382168_1_alg».proof.Proof.RowSpec
import proofs.«114485_j5334349382168_1_alg».proof.Proof.LibDotPlain
import Idealize.ShloMosaic.Lib.IdealHost
import Idealize.ShloMosaic.Lib.KernelVsHost

noncomputable section

open scoped BigOperators

namespace Cert.ReferenceIdeal.RefRow

open Cert.ReferenceIdeal Cert.ReferenceIdeal.Gen Cert.ReferenceIdeal.RefTerm Idealize.ShloMosaic Idealize.ShloMosaic.ValueIdx

/-! ## Broadcasts read at an index -/

section Bcast
variable {α : Type}

/-- A vector of 512 entries laid out as one row reads, at column `q` of that row, its entry `q`. -/
theorem bcast_vec_row (h : S512.BroadcastsInDim S1x512 ![1]) (b : S512.Idx → α) (q : Fin 512) :
    broadcastInDim S1x512 ![1] h b (ix2 (0 : Fin 1) q) = b (ix1 q) := by
  refine broadcastInDim_apply ![1] h b _ (ix1 q) ?_
  intro a
  match a with
  | ⟨0, _⟩ => rfl

/-- One row copied down 25000 rows reads, at (r, q), the row's entry `q`. -/
theorem bcast_row_mat (h : S1x512.BroadcastsInDim S25000x512 ![0, 1]) (y : S1x512.Idx → α) (r : Fin 25000)
    (q : Fin 512) : broadcastInDim S25000x512 ![0, 1] h y (ix2 r q) = y (ix2 (0 : Fin 1) q) :=
  broadcastInDim_oneRow_apply h y r q

/-- A vector of 25000 entries laid out as one column reads, at row `r`, its entry `r`. -/
theorem bcast_vec_col (h : S25000.BroadcastsInDim S25000x1 ![0]) (v : S25000.Idx → α) (r : Fin 25000) :
    broadcastInDim S25000x1 ![0] h v (ix2 r (0 : Fin 1)) = v (ix1 r) := by
  refine broadcastInDim_apply ![0] h v _ (ix1 r) ?_
  intro a
  match a with
  | ⟨0, _⟩ => rfl

/-- One column copied across 512 columns reads, at (r, q), the column's entry `r`. -/
theorem bcast_col_mat (h : S25000x1.BroadcastsInDim S25000x512 ![0, 1]) (c : S25000x1.Idx → α) (r : Fin 25000)
    (q : Fin 512) : broadcastInDim S25000x512 ![0, 1] h c (ix2 r q) = c (ix2 r (0 : Fin 1)) := by
  refine broadcastInDim_apply ![0, 1] h c _ (ix2 r (0 : Fin 1)) ?_
  intro a
  match a with
  | ⟨0, _⟩ => rfl
  | ⟨1, _⟩ => rfl

end Bcast

/-! ## The linear layer and the mix -/

/-- The product's dimension numbers are those of the plain 25000 × 512 by 512 × 512 product. -/
theorem dot_eq_plain : dot_S25000x512_S512x512_S25000x512_1_0_0_1_n_n = DotDims.plain 25000 512 512 := rfl

theorem refMix_apply (agg ysel : CFv Ideal S25000x512) (W : CFv Ideal S512x512) (b : CFv Ideal S512) (r : Fin 25000)
    (q : Fin 512) :
    refMix (F := Ideal) agg ysel W b (ix2 r q)
      = Cert.RowSpec.mixRow (fun k => agg (ix2 r k)) (fun k => ysel (ix2 r k)) (fun k q => W (ix2 k q))
          (fun q => b (ix1 q)) q := by
  unfold refMix Cert.RowSpec.mixRow
  rw [addf_apply, mulf_apply, mulf_apply, addf_apply]
  rw [broadcastInDim_scalar_apply, broadcastInDim_scalar_apply, constant_apply, constant_apply, bcast_row_mat,
    bcast_vec_row]
  unfold Host.dotGeneral
  rw [dot_eq_plain, Cert.LibDotPlain.dotGeneral_plain]

/-! ## The exponential linear unit -/

theorem refElu_apply (x : CFv Ideal S25000x512) (r : Fin 25000) (q : Fin 512) :
    refElu (F := Ideal) x (ix2 r q) = Cert.RowSpec.elu (x (ix2 r q)) := by
  unfold refElu
  rw [select_apply, cmpf_apply, mulf_apply, broadcastInDim_scalar_apply, broadcastInDim_scalar_apply, constant_apply,
    constant_apply]
  exact Cert.RowSpec.elu_expm1 (x (ix2 r q))

/-! ## The row mean -/

/-- The sum along a row from the zero word: entry `r` of the reduced vector is the sum of row `r`. -/
theorem reduce_row (e : CFv Ideal S25000x512) (r : Fin 25000) :
    Host.reduceAdd (F := Ideal) e (constant S_ .f32 0x00000000#32) reducesTo_S25000x512_S25000_d1 h_S_ (ix1 r)
      = ∑ k : Fin 512, e (ix2 r k) := by
  have h : S25000x512.Reduces [1] S25000 := by decide
  rw [hostReduceAdd_apply, Ideal.hostReduceAdd_single _ h, constant_apply, Ideal.ofBits_zero_f32, zero_add]
  show ∑ k : Fin 512, e (h.lift (ix1 r) k) = _
  refine Finset.sum_congr rfl fun k _ => congrArg e ?_
  funext c
  apply Fin.ext
  match c with
  | ⟨0, _⟩ => rfl
  | ⟨1, _⟩ => rfl

theorem refMean_apply (e : CFv Ideal S25000x512) (r : Fin 25000) :
    refMean (F := Ideal) e (ix2 r (0 : Fin 1)) = Cert.RowSpec.meanRow (fun k => e (ix2 r k)) := by
  unfold refMean Cert.RowSpec.meanRow
  rw [hostDivf_apply, bcast_vec_col, reduce_row, broadcastInDim_scalar_apply, constant_apply]

/-- A row with its mean taken off, as the reference spells it. -/
theorem cen_apply (e : CFv Ideal S25000x512) (r : Fin 25000) (q : Fin 512) :
    subf (F := Ideal) (φ := .f32) e
        (broadcastInDim S25000x512 ![0, 1] bcast_S25000x1_S25000x512_0_1 (refMean (F := Ideal) e)) (ix2 r q)
      = Cert.RowSpec.cenRow (fun k => e (ix2 r k)) q := by
  unfold Cert.RowSpec.cenRow
  rw [subf_apply, bcast_col_mat, refMean_apply]

/-! ## The row variance plus ε -/

/-- The divisor is 512: the integer word 0 converts to the real 0, and taking it off changes nothing. -/
theorem refDenom_apply : refDenom (F := Ideal) ix0 = Cert.RowSpec.w512 := by
  unfold refDenom
  rw [subf_apply, constant_apply, sitofp_apply]
  show Cert.RowSpec.w512 - (((0#32 : BitVec 32).toInt : ℝ) : EReal) = Cert.RowSpec.w512
  rw [show (0#32 : BitVec 32).toInt = 0 from rfl, Int.cast_zero, EReal.coe_zero, sub_zero]

/-- The guard holds: 512 is greater than 0. -/
theorem guard_eq_one :
    cmpf (F := Ideal) (φ := .f32) .ogt (refDenom (F := Ideal)) (constant S_ .f32 0x00000000#32) ix0 = 1#1 := by
  rw [cmpf_apply, refDenom_apply, constant_apply]
  show Ideal.cmp .ogt Cert.RowSpec.w512 Cert.RowSpec.wZero = 1#1
  have hlt : Cert.RowSpec.wZero < Cert.RowSpec.w512 := by
    rw [Cert.RowSpec.wZero_eq, Cert.RowSpec.w512_eq]
    exact EReal.coe_pos.mpr (by norm_num)
  unfold Ideal.cmp
  simp only [decide_eq_true hlt]
  rfl

theorem refVarEps_apply (e : CFv Ideal S25000x512) (r : Fin 25000) :
    refVarEps (F := Ideal) e (ix2 r (0 : Fin 1)) = Cert.RowSpec.varRow (fun k => e (ix2 r k)) := by
  unfold refVarEps Cert.RowSpec.varRow
  rw [addf_apply, select_apply, broadcastInDim_scalar_apply, guard_eq_one, select_one, hostDivf_apply, bcast_vec_col,
    reduce_row, broadcastInDim_scalar_apply, refDenom_apply, broadcastInDim_scalar_apply, constant_apply]
  refine congrArg (fun t => Ideal.div t Cert.RowSpec.w512 + Cert.RowSpec.wEps) ?_
  refine Finset.sum_congr rfl fun k _ => ?_
  rw [mulf_apply, cen_apply]

/-! ## The normalisation -/

theorem refNorm_apply (e : CFv Ideal S25000x512) (s o : CFv Ideal S512) (r : Fin 25000) (q : Fin 512) :
    refNorm (F := Ideal) e s o (ix2 r q)
      = Cert.RowSpec.cenRow (fun k => e (ix2 r k)) q * s (ix1 q)
          * Ideal.rsqrt (Cert.RowSpec.varRow (fun k => e (ix2 r k))) + o (ix1 q) := by
  unfold refNorm
  rw [addf_apply, mulf_apply, mulf_apply, cen_apply, bcast_row_mat, bcast_vec_row, bcast_row_mat, bcast_vec_row,
    bcast_col_mat]
  show _ * _ * Ideal.rsqrt (refVarEps (F := Ideal) e (ix2 r (0 : Fin 1))) + _ = _
  rw [refVarEps_apply]

/-! ## One row of the reference's result -/

theorem refTail_apply (agg ysel : CFv Ideal S25000x512) (W : CFv Ideal S512x512) (b s o : CFv Ideal S512)
    (r : Fin 25000) (q : Fin 512) :
    refTail (F := Ideal) agg ysel W b s o (ix2 r q)
      = Cert.RowSpec.rowOut (fun k => agg (ix2 r k)) (fun k => ysel (ix2 r k)) (fun k q => W (ix2 k q))
          (fun q => b (ix1 q)) (fun q => s (ix1 q)) (fun q => o (ix1 q)) q := by
  have hrow : (fun k => refElu (F := Ideal) (refMix (F := Ideal) agg ysel W b) (ix2 r k))
      = Cert.RowSpec.actRow (fun k => agg (ix2 r k)) (fun k => ysel (ix2 r k)) (fun k q => W (ix2 k q))
          (fun q => b (ix1 q)) := by
    funext k
    unfold Cert.RowSpec.actRow
    rw [refElu_apply, refMix_apply]
  unfold refTail Cert.RowSpec.rowOut
  rw [refNorm_apply, hrow]

theorem refTail_eq_G (agg ysel : CFv Ideal S25000x512) (W : CFv Ideal S512x512) (b s o : CFv Ideal S512) :
    refTail (F := Ideal) agg ysel W b s o = Cert.RowSpec.G agg ysel W b s o := by
  funext i
  obtain ⟨r, q, rfl⟩ : ∃ (r : Fin 25000) (q : Fin 512), i = ix2 r q := ⟨i 0, i 1, eq_ix2 i⟩
  rw [refTail_apply, Cert.RowSpec.G_apply]

end Cert.ReferenceIdeal.RefRow

end
-- ==== Proof.KernelHost.lean ====
/-
  The arrays the kernel region finds, as functions of the program's arguments.

  Before the region the program aggregates the messages over the edges and gathers the rows of the embedding buffer —
  the same host operations the reference begins with, kept here as the two opaque functions `hostAgg` and `hostSel`
  and never opened — and reshapes the bias, scale and offset vectors from [512] to [1, 512].
-/
import proofs.«114485_j5334349382168_1_alg».proof.Proof.Gen.KernelIdeal.Frame
import Idealize.ShloMosaic.Lib.StableHlo.Run

noncomputable section

namespace Cert.KernelIdeal.KernelHost

open Cert.KernelIdeal Cert.KernelIdeal.Gen Idealize.ShloMosaic Idealize.ShloMosaic.TcCoe Idealize.SL.Sem Idealize.ShloMosaic.StableHlo

variable {F : FTy → Type} [FloatOps F]

/-- The contents of an f32 buffer of shape `s`. -/
abbrev CFv (F : FTy → Type) (s : Shape) : Type := (⟨s, .f32⟩ : BufTy).Contents (Elt F)
/-- The contents of an i32 buffer of shape `s`. -/
abbrev CIv (F : FTy → Type) (s : Shape) : Type := (⟨s, .i32⟩ : BufTy).Contents (Elt F)

/-- The aggregated messages: edge `e` carries `vals e` times row `cols e` of `x` (a negative column index counted from
    the end), and the edges are summed into the rows `rows e` of an all-zero 25000 × 512 array. -/
def hostAgg (x : (CFv F S50000x512)) (rows cols : (CIv F S500000)) (vals : (CFv F S500000)) : (CFv F S25000x512) :=
  Host.scatterAdd scatter_S25000x512_S500000x1_S500000x512_1_0_0_1
    (broadcastInDim S25000x512 ![] bcast_S_S25000x512 (constant S_ .f32 0x00000000#32))
    (broadcastInDim S500000x1 ![0] bcast_S500000_S500000x1_0 rows)
    (mulf (broadcastInDim S500000x512 ![0, 1] bcast_S500000x1_S500000x512_0_1 (broadcastInDim S500000x1 ![0] bcast_S500000_S500000x1_0 vals))
      (Host.gather gather_S50000x512_S500000x1_S500000x512_1_0_n_n_0_1_1512 x
        (broadcastInDim S500000x1 ![0] bcast_S500000_S500000x1_0
          (select (cmpi .slt cols (broadcastInDim S500000 ![] bcast_S_S500000 (constantI S_ 32 0#32)))
            (addi cols (broadcastInDim S500000 ![] bcast_S_S500000 (constantI S_ 32 50000#32))) cols))))

/-- The rows of the embedding buffer at the sampled nodes (a negative node index counted from the end). -/
def hostSel (ybuf : (CFv F S100000x512)) (nodes : (CIv F S25000)) : (CFv F S25000x512) :=
  Host.gather gather_S100000x512_S25000x1_S25000x512_1_0_n_n_0_1_1512 ybuf
    (broadcastInDim S25000x1 ![0] bcast_S25000_S25000x1_0
      (select (cmpi .slt nodes (broadcastInDim S25000 ![] bcast_S_S25000 (constantI S_ 32 0#32)))
        (addi nodes (broadcastInDim S25000 ![] bcast_S_S25000 (constantI S_ 32 100000#32))) nodes))

attribute [local irreducible] Host.gather Host.scatterAdd

variable (m : (ℓ : Loc nD τ sig) → Buf (Elt F) ℓ)

/-- The region's first operand is the aggregated messages of the arguments. -/
theorem V_agg (c : Dev nD) :
    (V m c main_v12 : CFv F S25000x512) = hostAgg (m ((c : Thread nD τ).loc main_arg0)) (m ((c : Thread nD τ).loc main_arg1)) (m ((c : Thread nD τ).loc main_arg2)) (m ((c : Thread nD τ).loc main_arg3)) := by
  dsimp only [V, hostOps0]
  after_results_simp
  rfl

/-- The region's second operand is the gathered rows of the embedding buffer. -/
theorem V_sel (c : Dev nD) :
    (V m c main_v19 : CFv F S25000x512) = hostSel (m ((c : Thread nD τ).loc main_arg5)) (m ((c : Thread nD τ).loc main_arg4)) := by
  dsimp only [V, hostOps0]
  after_results_simp
  rfl

/-- The bias as a one-row matrix. -/
theorem V_bias (c : Dev nD) :
    (V m c main_v20 : CFv F S1x512) = shapeCast S1x512 (m ((c : Thread nD τ).loc main_arg7)) shapeCasts_S512_S1x512 := by
  dsimp only [V, hostOps0]
  after_results
  rfl

/-- The scale as a one-row matrix. -/
theorem V_scale (c : Dev nD) :
    (V m c main_v21 : CFv F S1x512) = shapeCast S1x512 (m ((c : Thread nD τ).loc main_arg8)) shapeCasts_S512_S1x512 := by
  dsimp only [V, hostOps0]
  after_results
  rfl

/-- The offset as a one-row matrix. -/
theorem V_offset (c : Dev nD) :
    (V m c main_v22 : CFv F S1x512) = shapeCast S1x512 (m ((c : Thread nD τ).loc main_arg9)) shapeCasts_S512_S1x512 := by
  dsimp only [V, hostOps0]
  after_results
  rfl

end Cert.KernelIdeal.KernelHost

end
-- ==== Proof.KernelRow.lean ====
import proofs.«114485_j5334349382168_1_alg».proof.Proof.Gen.KernelIdeal.Value
import proofs.«114485_j5334349382168_1_alg».proof.Proof.RowSpec
import proofs.«114485_j5334349382168_1_alg».proof.Proof.LibDotPlain
import Idealize.ShloMosaic.Lib.ValueLayout

noncomputable section

open scoped BigOperators

namespace Cert.KernelIdeal.KernelRow

open Cert.KernelIdeal Cert.KernelIdeal.Gen Idealize.ShloMosaic Idealize.ShloMosaic.ValueIdx

/-! ## The index maps of the output window at an entry (p, q) -/

theorem ix6_0_at (p : Fin 1000) (q : Fin 512) : Value.ix6_0 (ix2 p q) = ix2 p q := by
  funext a
  match a with
  | ⟨0, _⟩ => rfl
  | ⟨1, _⟩ => rfl

theorem ix6_1_at (p : Fin 1000) (q : Fin 512) : Value.ix6_1 (ix2 p q) = ix2 (0 : Fin 1) q := by
  funext a
  match a with
  | ⟨0, _⟩ => rfl
  | ⟨1, _⟩ => rfl

theorem ix6_2_at (p : Fin 1000) (q : Fin 512) : Value.ix6_2 (ix2 p q) = ix1 p := by
  funext a
  match a with
  | ⟨0, _⟩ => rfl

theorem ix6_3_at (p : Fin 1000) (q : Fin 512) : Value.ix6_3 (ix2 p q) = ix2 (0 : Fin 1) q := by
  funext a
  match a with
  | ⟨0, _⟩ => rfl
  | ⟨1, _⟩ => rfl

theorem dot_eq_plain : dot_S1000x512_S512x512_S1000x512_1_0_0_1_n_n = DotDims.plain 1000 512 512 := rfl

theorem lift_at (p : Fin 1000) (k : Fin 512) :
    reduces_S1000x512_S1000.lift (ix1 p) k = ix2 p k := by
  funext a
  match a with
  | ⟨0, _⟩ => rfl
  | ⟨1, _⟩ => rfl

/-! ## The block before centring

The centred block the kernel stores is built in three stages. `mixV` is the linear layer followed by the momentum
mix, `actV` the exponential linear unit of it, and the payload subtracts from `actV` its lane mean. -/

section
variable (P0 : Vec Ideal S1000x512 .f32) (P1 : Vec Ideal S512x512 .f32) (P2 : Vec Ideal S1x512 .f32)
  (P3 : Vec Ideal S1000x512 .f32)

/-- The mixed block: 0.9 · (P0 · P1 + bias) + 0.1 · P3. -/
def mixV : FVec Ideal S1000x512 .f32 :=
  addf
    (mulf (broadcast S1000x512 (Scalar.ofBits .f32 0x3F666666#32))
      (addf
        (matmul dot_S1000x512_S512x512_S1000x512_1_0_0_1_n_n none
          (truncf .bf16 (shapeCast S1000x512 P0 shapeCasts_S1000x512_S1000x512) bitsLt_bf16_f32)
          (truncf .bf16 P1 bitsLt_bf16_f32) (constant S1000x512 .f32 0x00000000#32))
        (broadcastTo S1000x512 (shapeCast S1x512 P2 shapeCasts_S1x512_S1x512) broadcasts_S1x512_S1000x512)))
    (mulf (broadcast S1000x512 (Scalar.ofBits .f32 0x3DCCCCCD#32))
      (shapeCast S1000x512 P3 shapeCasts_S1000x512_S1000x512))

/-- The activated block: the unit applied to the mixed block entry by entry. -/
def actV : FVec Ideal S1000x512 .f32 :=
  select (cmpf .ogt (mixV P0 P1 P2 P3) (broadcast S1000x512 (Scalar.ofBits .f32 0x00000000#32)))
    (mixV P0 P1 P2 P3)
    (subf (exp (mixV P0 P1 P2 P3)) (broadcast S1000x512 (Scalar.ofBits .f32 0x3F800000#32)))

/-- The stored payload is the activated block minus its lane mean broadcast back. -/
theorem pay2_eq : k0_pay2 P0 P1 P2 P3 =
    subf (actV P0 P1 P2 P3)
      (broadcastTo S1000x512
        (divf
          (shapeCast S1000x1
            (multiReduction .add [1] S1000 (actV P0 P1 P2 P3) 0x00000000#32 reduces_S1000x512_S1000 (.inl rfl) rfl)
            shapeCasts_S1000_S1000x1)
          (broadcast S1000x1 (Scalar.ofBits .f32 0x44000000#32)))
        broadcasts_S1000x1_S1000x512) := rfl

/-- The mixed block at (p, q) is the mix of row p of the operands at column q: the product accumulated into zeros is
    the sum of products, the bias row is read at its one row, and the two recasts to the same shape change nothing. -/
theorem mixV_apply (p : Fin 1000) (q : Fin 512) :
    mixV P0 P1 P2 P3 (ix2 p q)
      = Cert.RowSpec.mixRow (fun k => P0 (ix2 p k)) (fun k => P3 (ix2 p k)) (fun k q => P1 (ix2 k q))
          (fun q => P2 (ix2 (0 : Fin 1) q)) q := by
  have hm : matmul (F := Ideal) dot_S1000x512_S512x512_S1000x512_1_0_0_1_n_n none
        (truncf .bf16 (shapeCast S1000x512 P0 shapeCasts_S1000x512_S1000x512) bitsLt_bf16_f32)
        (truncf .bf16 P1 bitsLt_bf16_f32) (constant S1000x512 .f32 0x00000000#32) (ix2 p q)
      = ∑ k : Fin 512, (P0 (ix2 p k) : EReal) * P1 (ix2 k q) := by
    rw [shapeCast_self, dot_eq_plain]
    exact Cert.LibDotPlain.matmul_zero_plain 1000 512 512 none
      (truncf .bf16 P0 bitsLt_bf16_f32) (truncf .bf16 P1 bitsLt_bf16_f32) p q
  have hb : broadcastTo S1000x512 (shapeCast S1x512 P2 shapeCasts_S1x512_S1x512) broadcasts_S1x512_S1000x512 (ix2 p q)
      = P2 (ix2 (0 : Fin 1) q) := by
    rw [shapeCast_self]
    exact broadcastTo_1b_ab_apply P2 broadcasts_S1x512_S1000x512 p q
  have hy : shapeCast S1000x512 P3 shapeCasts_S1000x512_S1000x512 (ix2 p q) = P3 (ix2 p q) := by
    rw [shapeCast_self]
  show Ideal.ofBits .f32 0x3F666666#32
        * (matmul dot_S1000x512_S512x512_S1000x512_1_0_0_1_n_n none
            (truncf .bf16 (shapeCast S1000x512 P0 shapeCasts_S1000x512_S1000x512) bitsLt_bf16_f32)
            (truncf .bf16 P1 bitsLt_bf16_f32) (constant S1000x512 .f32 0x00000000#32) (ix2 p q)
          + broadcastTo S1000x512 (shapeCast S1x512 P2 shapeCasts_S1x512_S1x512) broadcasts_S1x512_S1000x512 (ix2 p q))
      + Ideal.ofBits .f32 0x3DCCCCCD#32 * shapeCast S1000x512 P3 shapeCasts_S1000x512_S1000x512 (ix2 p q) = _
  rw [hm, hb, hy]
  rfl

/-- The activated block at (p, q) is the activated row p at column q. -/
theorem actV_apply (p : Fin 1000) (q : Fin 512) :
    actV P0 P1 P2 P3 (ix2 p q)
      = Cert.RowSpec.actRow (fun k => P0 (ix2 p k)) (fun k => P3 (ix2 p k)) (fun k q => P1 (ix2 k q))
          (fun q => P2 (ix2 (0 : Fin 1) q)) q := by
  show Scalar.select (Ideal.cmp .ogt (mixV P0 P1 P2 P3 (ix2 p q)) (Ideal.ofBits .f32 0x00000000#32))
      (mixV P0 P1 P2 P3 (ix2 p q))
      (Ideal.exp (mixV P0 P1 P2 P3 (ix2 p q)) - Ideal.ofBits .f32 0x3F800000#32) = _
  rw [mixV_apply]
  rfl

/-! ## Reading a column and a lane sum -/

/-- A [1000, 1] column broadcast over 512 lanes reads, at (p, q), the column at p. -/
theorem broadcastTo_col_at {α : Type} (v : S1000x1.Idx → α) (p : Fin 1000) (q : Fin 512) :
    broadcastTo S1000x512 v broadcasts_S1000x1_S1000x512 (ix2 p q) = v (ix2 p (0 : Fin 1)) := by
  refine broadcastTo_apply v broadcasts_S1000x1_S1000x512 (ix2 p q) (ix2 p (0 : Fin 1)) fun a => ?_
  match a with
  | ⟨0, _⟩ => rfl
  | ⟨1, _⟩ => rfl

/-- A [1000] vector recast as a [1000, 1] column reads, at (p, 0), the vector at p: both have row-major position p. -/
theorem shapeCast_col_at {α : Type} (v : S1000.Idx → α) (p : Fin 1000) :
    shapeCast S1000x1 v shapeCasts_S1000_S1000x1 (ix2 p (0 : Fin 1)) = v (ix1 p) := by
  refine shapeCast_apply v shapeCasts_S1000_S1000x1 (ix2 p (0 : Fin 1)) (ix1 p) ?_
  rw [Shape.rowMajor_val_one, Shape.rowMajor_val_two]
  show p.val = p.val * 1 + 0
  omega

/-- The sum over the lanes of a [1000, 512] block, at row p, is the sum of the 512 entries of that row. -/
theorem laneSum_at (src : FVec Ideal S1000x512 .f32) (p : Fin 1000) :
    multiReduction .add [1] S1000 src 0x00000000#32 reduces_S1000x512_S1000 (.inl rfl) rfl (ix1 p)
      = ∑ k : Fin 512, src (ix2 p k) := by
  refine (Ideal.multiReduction_add_single src 0x00000000#32 reduces_S1000x512_S1000 (.inl rfl) rfl (ix1 p)).trans ?_
  show ∑ k : Fin 512, src (reduces_S1000x512_S1000.lift (ix1 p) k) = _
  exact Finset.sum_congr rfl fun k _ => by rw [lift_at]

/-- The stored payload at (p, q) is the activated row p, centred, at column q. -/
theorem pay2_apply (p : Fin 1000) (q : Fin 512) :
    k0_pay2 P0 P1 P2 P3 (ix2 p q)
      = Cert.RowSpec.cenRow
          (Cert.RowSpec.actRow (fun k => P0 (ix2 p k)) (fun k => P3 (ix2 p k)) (fun k q => P1 (ix2 k q))
            (fun q => P2 (ix2 (0 : Fin 1) q))) q := by
  rw [pay2_eq, subf_apply, broadcastTo_col_at, divf_apply, shapeCast_col_at, laneSum_at, actV_apply]
  show _ - Ideal.div (∑ k : Fin 512, actV P0 P1 P2 P3 (ix2 p k)) (Ideal.ofBits .f32 0x44000000#32) = _
  rw [Finset.sum_congr rfl fun k _ => actV_apply P0 P1 P2 P3 p k]
  rfl

/-- The lane sum of the squared payload at row p is the sum of the squares of the centred activated row p. -/
theorem sqSum_at (p : Fin 1000) :
    multiReduction (F := Ideal) .add [1] S1000 (mulf (k0_pay2 P0 P1 P2 P3) (k0_pay2 P0 P1 P2 P3)) 0x00000000#32
        reduces_S1000x512_S1000 (.inl rfl) rfl (ix1 p)
      = ∑ k : Fin 512,
          Cert.RowSpec.cenRow
              (Cert.RowSpec.actRow (fun k => P0 (ix2 p k)) (fun k => P3 (ix2 p k)) (fun k q => P1 (ix2 k q))
                (fun q => P2 (ix2 (0 : Fin 1) q))) k
            * Cert.RowSpec.cenRow
              (Cert.RowSpec.actRow (fun k => P0 (ix2 p k)) (fun k => P3 (ix2 p k)) (fun k q => P1 (ix2 k q))
                (fun q => P2 (ix2 (0 : Fin 1) q))) k := by
  refine (laneSum_at _ p).trans ?_
  exact Finset.sum_congr rfl fun k _ => by rw [mulf_apply, pay2_apply]

end

/-! ## The kernel's block at an entry -/

theorem E6_apply (P0 : Vec Ideal S1000x512 .f32) (P1 : Vec Ideal S512x512 .f32) (P2 : Vec Ideal S1x512 .f32)
    (P3 : Vec Ideal S1000x512 .f32) (P4 P5 : Vec Ideal S1x512 .f32) (p : Fin 1000) (q : Fin 512) :
    Cert.KernelIdeal.Value.E6 (F := Ideal) P0 P1 P2 P3 P4 P5 (ix2 p q)
      = Cert.RowSpec.rowOut (fun k => P0 (ix2 p k)) (fun k => P3 (ix2 p k)) (fun k q => P1 (ix2 k q))
          (fun q => P2 (ix2 (0 : Fin 1) q)) (fun q => P4 (ix2 (0 : Fin 1) q)) (fun q => P5 (ix2 (0 : Fin 1) q)) q := by
  -- the block entry with the scalar operations read at the extended reals
  show k0_pay2 P0 P1 P2 P3 (Value.ix6_0 (ix2 p q)) * P4 (Value.ix6_1 (ix2 p q))
        * Ideal.rsqrt
            (Ideal.div
                (multiReduction (F := Ideal) .add [1] S1000 (mulf (k0_pay2 P0 P1 P2 P3) (k0_pay2 P0 P1 P2 P3))
                  0x00000000#32 reduces_S1000x512_S1000 (.inl rfl) rfl (Value.ix6_2 (ix2 p q)))
                (Ideal.ofBits .f32 0x44000000#32)
              + Ideal.ofBits .f32 0x3089705F#32)
      + P5 (Value.ix6_3 (ix2 p q)) = _
  rw [ix6_0_at, ix6_1_at, ix6_2_at, ix6_3_at, sqSum_at, pay2_apply]
  rfl

end Cert.KernelIdeal.KernelRow

end
-- ==== Proof.KernelBlocks.lean ====
/-
  From the blocks to the array: what the kernel program leaves in its result.

  The grid has 25 points; point `t` works on rows 1000·t … 1000·t + 999 of the aggregated messages and of the gathered
  rows, on the whole weight matrix and on the three one-row matrices (bias, scale, offset), and writes rows
  1000·t … 1000·t + 999 of the result. Each row of a block is one row of the whole arrays, so what point `t` writes is
  block `t` of ONE whole-array function: row `r` of the result is `rowOut` of row `r` of the two big operands. The 25
  blocks tile the 25000 rows, so the result array ends holding that function everywhere.
-/
import proofs.«114485_j5334349382168_1_alg».proof.Proof.Gen.KernelIdeal.Value
import proofs.«114485_j5334349382168_1_alg».proof.Proof.KernelHost
import proofs.«114485_j5334349382168_1_alg».proof.Proof.KernelRow
import proofs.«114485_j5334349382168_1_alg».proof.Proof.RowSpec

set_option maxRecDepth 16384

noncomputable section

namespace Cert.KernelIdeal.KernelBlocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as one function of the arguments. -/
def result (c : Dev nD) : S25000x512.Idx → EReal :=
  Cert.RowSpec.G (KernelHost.hostAgg (m ((c : Thread nD τ).loc main_arg0)) (m ((c : Thread nD τ).loc main_arg1)) (m ((c : Thread nD τ).loc main_arg2)) (m ((c : Thread nD τ).loc main_arg3))) (KernelHost.hostSel (m ((c : Thread nD τ).loc main_arg5)) (m ((c : Thread nD τ).loc main_arg4))) (m ((c : Thread nD τ).loc main_arg6)) (m ((c : Thread nD τ).loc main_arg7)) (m ((c : Thread nD τ).loc main_arg8)) (m ((c : Thread nD τ).loc main_arg9))

/-! ## Where the windows sit

Decided once over the 25 points: the three row-blocked windows (the two big operands and the result) are at block row
`t` and block column 0; the other four stay at block (0, 0). -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt (show cfg0.N = 25 from N_0)

/-- Row `p` of block `t` is row 1000·t + p of the whole array. -/
def rowOf (t : Fin cfg0.N) (p : Fin 1000) : Fin 25000 := ⟨t.val * 1000 + p.val, by have := t_lt t; have := p.isLt; omega⟩

/-! ## The input blocks, read in the whole arrays -/

/-- Point `t`'s block of the aggregated messages. -/
abbrev aggBlk (c : Dev nD) (t : Fin cfg0.N) : Vec Ideal S1000x512 .f32 := iblk m c 0 t
/-- Point `t`'s block of the gathered rows. -/
abbrev selBlk (c : Dev nD) (t : Fin cfg0.N) : Vec Ideal S1000x512 .f32 := iblk m c 1 t
/-- The weight matrix as point `t` sees it. -/
abbrev wBlk (c : Dev nD) (t : Fin cfg0.N) : Vec Ideal S512x512 .f32 := iblk m c 2 t
/-- The bias row as point `t` sees it. -/
abbrev bBlk (c : Dev nD) (t : Fin cfg0.N) : Vec Ideal S1x512 .f32 := iblk m c 3 t
/-- The scale row as point `t` sees it. -/
abbrev sBlk (c : Dev nD) (t : Fin cfg0.N) : Vec Ideal S1x512 .f32 := iblk m c 4 t
/-- The offset row as point `t` sees it. -/
abbrev oBlk (c : Dev nD) (t : Fin cfg0.N) : Vec Ideal S1x512 .f32 := iblk m c 5 t

theorem aggBlk_apply (c : Dev nD) (t : Fin cfg0.N) (p : Fin 1000) (k : Fin 512) :
    aggBlk m c t (ix2 p k) = KernelHost.hostAgg (m ((c : Thread nD τ).loc main_arg0)) (m ((c : Thread nD τ).loc main_arg1)) (m ((c : Thread nD τ).loc main_arg2)) (m ((c : Thread nD τ).loc main_arg3)) (ix2 (rowOf t p) k) := by
  rw [← KernelHost.V_agg m c]
  show V m c main_v12 (((cfg0.win 0).blk t).view.emb (ix2 p k)) = V m c main_v12 (ix2 (rowOf t p) k)
  congr 1
  obtain ⟨e0, e1, -⟩ := idx_facts t
  funext a; apply Fin.ext
  match a with
  | ⟨0, _⟩ => show win0_0.index t (0 : Fin 2) * 1000 + 1 * p.val = t.val * 1000 + p.val; omega
  | ⟨1, _⟩ => show win0_0.index t (1 : Fin 2) * 512 + 1 * k.val = k.val; omega

theorem selBlk_apply (c : Dev nD) (t : Fin cfg0.N) (p : Fin 1000) (k : Fin 512) :
    selBlk m c t (ix2 p k) = KernelHost.hostSel (m ((c : Thread nD τ).loc main_arg5)) (m ((c : Thread nD τ).loc main_arg4)) (ix2 (rowOf t p) k) := by
  rw [← KernelHost.V_sel m c]
  show V m c main_v19 (((cfg0.win 1).blk t).view.emb (ix2 p k)) = V m c main_v19 (ix2 (rowOf t p) k)
  congr 1
  obtain ⟨-, -, e0, e1, -⟩ := idx_facts t
  funext a; apply Fin.ext
  match a with
  | ⟨0, _⟩ => show win0_1.index t (0 : Fin 2) * 1000 + 1 * p.val = t.val * 1000 + p.val; omega
  | ⟨1, _⟩ => show win0_1.index t (1 : Fin 2) * 512 + 1 * k.val = k.val; omega

theorem wBlk_apply (c : Dev nD) (t : Fin cfg0.N) (k q : Fin 512) :
    wBlk m c t (ix2 k q) = (m ((c : Thread nD τ).loc main_arg6)) (ix2 k q) := by
  rw [← V_main_arg6 m c]
  show V m c main_arg6 (((cfg0.win 2).blk t).view.emb (ix2 k q)) = V m c main_arg6 (ix2 k q)
  congr 1
  obtain ⟨-, -, -, -, e0, e1, -⟩ := idx_facts t
  funext a; apply Fin.ext
  match a with
  | ⟨0, _⟩ => show win0_2.index t (0 : Fin 2) * 512 + 1 * k.val = k.val; omega
  | ⟨1, _⟩ => show win0_2.index t (1 : Fin 2) * 512 + 1 * q.val = q.val; omega

/-- A length-512 vector reshaped to one row, read at (0, q), is the vector at q. -/
theorem row_apply (v : S512.Idx → EReal) (q : Fin 512) :
    (shapeCast S1x512 v shapeCasts_S512_S1x512 : S1x512.Idx → EReal) (ix2 (0 : Fin 1) q) = v (ix1 q) := by
  refine (shapeCast_apply _ _ (ix2 (0 : Fin 1) q) (ix1 q) ?_).trans rfl
  rw [Shape.rowMajor_val_one, Shape.rowMajor_val_two]
  show q.val = 0 * 512 + q.val
  omega

theorem bBlk_apply (c : Dev nD) (t : Fin cfg0.N) (q : Fin 512) :
    bBlk m c t (ix2 (0 : Fin 1) q) = (m ((c : Thread nD τ).loc main_arg7)) (ix1 q) := by
  refine Eq.trans ?_ ((congrFun (KernelHost.V_bias m c) (ix2 (0 : Fin 1) q)).trans (row_apply _ q))
  show V m c main_v20 (((cfg0.win 3).blk t).view.emb (ix2 (0 : Fin 1) q)) = V m c main_v20 (ix2 (0 : Fin 1) q)
  congr 1
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 512 + 1 * q.val = q.val; omega

theorem sBlk_apply (c : Dev nD) (t : Fin cfg0.N) (q : Fin 512) :
    sBlk m c t (ix2 (0 : Fin 1) q) = (m ((c : Thread nD τ).loc main_arg8)) (ix1 q) := by
  refine Eq.trans ?_ ((congrFun (KernelHost.V_scale m c) (ix2 (0 : Fin 1) q)).trans (row_apply _ q))
  show V m c main_v21 (((cfg0.win 4).blk t).view.emb (ix2 (0 : Fin 1) q)) = V m c main_v21 (ix2 (0 : Fin 1) q)
  congr 1
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 512 + 1 * q.val = q.val; omega

theorem oBlk_apply (c : Dev nD) (t : Fin cfg0.N) (q : Fin 512) :
    oBlk m c t (ix2 (0 : Fin 1) q) = (m ((c : Thread nD τ).loc main_arg9)) (ix1 q) := by
  refine Eq.trans ?_ ((congrFun (KernelHost.V_offset m c) (ix2 (0 : Fin 1) q)).trans (row_apply _ q))
  show V m c main_v22 (((cfg0.win 5).blk t).view.emb (ix2 (0 : Fin 1) q)) = V m c main_v22 (ix2 (0 : Fin 1) q)
  congr 1
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 512 + 1 * q.val = q.val; omega

/-! ## What one point writes back -/

theorem hz : (![0, 0] : Fin 2 → Nat) = fun _ => 0 := funext fun a => by fin_cases a <;> rfl

/-- Entry (p, q) of what point `t` leaves in its output block is `rowOut` of the blocks' rows `p`. -/
theorem out_apply (x0 x1 : Vec Ideal S1000x512 .f32) (x2 : Vec Ideal S512x512 .f32) (x3 x4 x5 : Vec Ideal S1x512 .f32)
    (p : Fin 1000) (q : Fin 512) :
    out0_6 x0 x1 x2 x3 x4 x5 (ix2 p q)
      = Cert.RowSpec.rowOut (fun k => x0 (ix2 p k)) (fun k => x1 (ix2 p k)) (fun k q => x2 (ix2 k q))
          (fun q => x3 (ix2 (0 : Fin 1) q)) (fun q => x4 (ix2 (0 : Fin 1) q)) (fun q => x5 (ix2 (0 : Fin 1) q)) q := by
  unfold out0_6
  rw [Cert.KernelIdeal.Value.canon6_eq]
  simp only [View.ld_unit_zero (S := S1000x512) hz, View.ld_unit_zero (S := S512x512) hz, View.ld_unit_zero (S := S1x512) hz]
  exact KernelRow.E6_apply x0 x2 x3 x1 x4 x5 p q

/-- What point `t` writes back is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  funext j
  obtain ⟨p, q, rfl⟩ : ∃ (p : Fin 1000) (q : Fin 512), j = ix2 p q := ⟨j 0, j 1, eq_ix2 j⟩
  show out0_6 (aggBlk m c t) (selBlk m c t) (wBlk m c t) (bBlk m c t) (sBlk m c t) (oBlk m c t) (ix2 p q)
    = result m c (((cfg0.win 6).blk t).view.emb (ix2 p q))
  have hemb : ((cfg0.win 6).blk t).view.emb (ix2 p q) = (ix2 (rowOf t p) q : S25000x512.Idx) := by
    obtain ⟨-, -, -, -, -, -, -, -, -, -, -, -, e0, e1⟩ := idx_facts t
    funext a; apply Fin.ext
    match a with
    | ⟨0, _⟩ => show win0_6.index t (0 : Fin 2) * 1000 + 1 * p.val = t.val * 1000 + p.val; omega
    | ⟨1, _⟩ => show win0_6.index t (1 : Fin 2) * 512 + 1 * q.val = q.val; omega
  rw [hemb, out_apply]
  unfold result
  rw [Cert.RowSpec.G_apply]
  have ha : (fun k => aggBlk m c t (ix2 p k)) = fun k => KernelHost.hostAgg (m ((c : Thread nD τ).loc main_arg0)) (m ((c : Thread nD τ).loc main_arg1)) (m ((c : Thread nD τ).loc main_arg2)) (m ((c : Thread nD τ).loc main_arg3)) (ix2 (rowOf t p) k) :=
    funext fun k => aggBlk_apply m c t p k
  have hy : (fun k => selBlk m c t (ix2 p k)) = fun k => KernelHost.hostSel (m ((c : Thread nD τ).loc main_arg5)) (m ((c : Thread nD τ).loc main_arg4)) (ix2 (rowOf t p) k) :=
    funext fun k => selBlk_apply m c t p k
  have hW : (fun k q => wBlk m c t (ix2 k q)) = fun k q => (m ((c : Thread nD τ).loc main_arg6)) (ix2 k q) :=
    funext fun k => funext fun q => wBlk_apply m c t k q
  have hb : (fun q => bBlk m c t (ix2 (0 : Fin 1) q)) = fun q => (m ((c : Thread nD τ).loc main_arg7)) (ix1 q) := funext fun q => bBlk_apply m c t q
  have hs : (fun q => sBlk m c t (ix2 (0 : Fin 1) q)) = fun q => (m ((c : Thread nD τ).loc main_arg8)) (ix1 q) := funext fun q => sBlk_apply m c t q
  have ho : (fun q => oBlk m c t (ix2 (0 : Fin 1) q)) = fun q => (m ((c : Thread nD τ).loc main_arg9)) (ix1 q) := funext fun q => oBlk_apply m c t q
  rw [ha, hy, hW, hb, hs, ho]

/-! ## The blocks tile the array -/

/-- An index of the result array is in point `t`'s block iff each coordinate is in the block's range on its axis. -/
theorem mem_blk (t : Fin cfg0.N) (i : S25000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v23).slice (win0_6.rect t)).set ↔ _
  rw [View.set_slice_whole, Rect.mem_set_unit]
  exact Iff.rfl

/-- Row `r` lies in the block of point `r / 1000`. -/
theorem cover (i : S25000x512.Idx) : ∃ t : Fin cfg0.N, (cfg0.win 6).flush t = true ∧ i ∈ ((cfg0.win 6).blk t).view.set := by
  have hi0 : (i 0).val < 25000 := (i 0).isLt
  have hi1 : (i 1).val < 512 := (i 1).isLt
  let t : Fin cfg0.N := ⟨(i 0).val / 1000, by rw [show cfg0.N = 25 from N_0]; omega⟩
  have ht : t.val = (i 0).val / 1000 := rfl
  refine ⟨t, flush0_6 t, ?_⟩
  rw [mem_blk]
  obtain ⟨-, -, -, -, -, -, -, -, -, -, -, -, e0, e1⟩ := idx_facts t
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 512 ≤ (i 1).val ∧ (i 1).val < win0_6.index t (1 : Fin 2) * 512 + 512; omega

/-- The result array after the run is `result`. -/
theorem final (c : Dev nD) : (dats m 0 c).arrAt 6 cfg0.N = result m c :=
  (dats m 0 c).arrAt_eq_of_cover 6 (result m c) (fun t _ => flushed_eq m c t) cover

/-! ## The run, read -/

/-- Every weakly fair execution of the kernel program terminates with the result array at `result` and the arguments
    unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.KernelBlocks

end
-- ==== Proof.Bridge.lean ====
/-
  The two programs compute one function.

  Both begin with the same host operations — the aggregation of the messages over the edges and the gather of the
  embedding buffer's rows — spelt over each program's own shape records. The records hold the same dimension numbers,
  so the two spellings are one function of the arguments; it is never opened. After it the reference's term, read at
  an index, and the kernel's blocks, put together, are both `G`: row `r` of the result is `rowOut` of row `r` of the
  aggregated messages and of the gathered rows.
-/
import proofs.«114485_j5334349382168_1_alg».proof.Proof.RefRow
import proofs.«114485_j5334349382168_1_alg».proof.Proof.KernelBlocks

noncomputable section

namespace Cert.Bridge

open Idealize.ShloMosaic Idealize.ShloMosaic.TcCoe Idealize.SL.Sem
open Cert.ReferenceIdeal.Gen Cert.KernelIdeal.Gen

/-- The two programs' records of the first gather hold the same dimension numbers. -/
theorem gatherX_eq :
    Cert.ReferenceIdeal.gather_S50000x512_S500000x1_S500000x512_1_0_n_n_0_1_1512
      = Cert.KernelIdeal.gather_S50000x512_S500000x1_S500000x512_1_0_n_n_0_1_1512 := rfl

/-- The two programs' records of the scatter-add hold the same dimension numbers. -/
theorem scatter_eq :
    Cert.ReferenceIdeal.scatter_S25000x512_S500000x1_S500000x512_1_0_0_1
      = Cert.KernelIdeal.scatter_S25000x512_S500000x1_S500000x512_1_0_0_1 := rfl

/-- The two programs' records of the second gather hold the same dimension numbers. -/
theorem gatherY_eq :
    Cert.ReferenceIdeal.gather_S100000x512_S25000x1_S25000x512_1_0_n_n_0_1_1512
      = Cert.KernelIdeal.gather_S100000x512_S25000x1_S25000x512_1_0_n_n_0_1_1512 := rfl

variable {F : FTy → Type} [FloatOps F]

/-- The aggregation is one function in both programs. -/
theorem hostAgg_eq (x : Cert.KernelIdeal.KernelHost.CFv F Cert.KernelIdeal.S50000x512)
    (rows cols : Cert.KernelIdeal.KernelHost.CIv F Cert.KernelIdeal.S500000)
    (vals : Cert.KernelIdeal.KernelHost.CFv F Cert.KernelIdeal.S500000) :
    Cert.ReferenceIdeal.RefTerm.hostAgg (F := F) x rows cols vals = Cert.KernelIdeal.KernelHost.hostAgg (F := F) x rows cols vals := by
  unfold Cert.ReferenceIdeal.RefTerm.hostAgg Cert.KernelIdeal.KernelHost.hostAgg
  rw [gatherX_eq, scatter_eq]

/-- The gather of the embedding buffer's rows is one function in both programs. -/
theorem hostSel_eq (ybuf : Cert.KernelIdeal.KernelHost.CFv F Cert.KernelIdeal.S100000x512)
    (nodes : Cert.KernelIdeal.KernelHost.CIv F Cert.KernelIdeal.S25000) :
    Cert.ReferenceIdeal.RefTerm.hostSel (F := F) ybuf nodes = Cert.KernelIdeal.KernelHost.hostSel (F := F) ybuf nodes := by
  unfold Cert.ReferenceIdeal.RefTerm.hostSel Cert.KernelIdeal.KernelHost.hostSel
  rw [gatherY_eq]

/-- The reference's result term, at the kernel program's arguments, is the kernel program's result. -/
theorem refOut_eq_result (m : (ℓ : Loc Cert.KernelIdeal.nD Cert.KernelIdeal.τ Cert.KernelIdeal.sig) → Buf (Elt Ideal) ℓ)
    (c : Dev Cert.KernelIdeal.nD) :
    Cert.ReferenceIdeal.RefTerm.refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
      = Cert.KernelIdeal.KernelBlocks.result m c := by
  unfold Cert.ReferenceIdeal.RefTerm.refOut Cert.KernelIdeal.KernelBlocks.result
  rw [Cert.ReferenceIdeal.RefRow.refTail_eq_G, hostAgg_eq, hostSel_eq]

end Cert.Bridge

end
-- ==== Proof.lean ====
/-
  The certificate of the fused layer: a sparse aggregation, a linear layer, a momentum mix with gathered rows of an
  embedding buffer, an exponential linear unit and a row normalisation with scale and offset.

  The kernel program does the aggregation and the gather on the host and the rest in one region over 25 row blocks of
  1000 rows; the reference does everything on the host. Over the extended reals a change of float format is the
  identity, a product accumulated into zeros is the plain sum of products, a lane sum is the plain sum, `expm1 x` is
  `exp x − 1`, and the reference's guarded variance divisor `512 − 0` is 512 and positive; so both programs compute,
  row by row, the function `rowOut` of Proof/RowSpec.lean, and the result arrays agree entry by entry
  (`algebraic`). No law of the extended reals that fails at an infinity is used, so the precondition is never opened.
  The frames of the two kernel programs are the generated ones; the reference's frame is its run with the result
  dropped. The idealisation rewrote nothing, so `preserves` asks nothing.
-/
import proofs.«114485_j5334349382168_1_alg».proof.Defs
import proofs.«114485_j5334349382168_1_alg».proof.Proof.Gen.Kernel
import proofs.«114485_j5334349382168_1_alg».proof.Proof.Gen.Kernel.Skeleton
import proofs.«114485_j5334349382168_1_alg».proof.Proof.Gen.Kernel.Launch
import proofs.«114485_j5334349382168_1_alg».proof.Proof.Gen.Kernel.Points
import proofs.«114485_j5334349382168_1_alg».proof.Proof.Gen.Kernel.Frame
import proofs.«114485_j5334349382168_1_alg».proof.Proof.Gen.KernelIdeal
import proofs.«114485_j5334349382168_1_alg».proof.Proof.Gen.KernelIdeal.Skeleton
import proofs.«114485_j5334349382168_1_alg».proof.Proof.Gen.KernelIdeal.Launch
import proofs.«114485_j5334349382168_1_alg».proof.Proof.Gen.KernelIdeal.Points
import proofs.«114485_j5334349382168_1_alg».proof.Proof.Gen.KernelIdeal.Frame
import proofs.«114485_j5334349382168_1_alg».proof.Proof.Gen.ReferenceIdeal
import proofs.«114485_j5334349382168_1_alg».proof.Proof.Gen.Pre_finite_inputs
import proofs.«114485_j5334349382168_1_alg».proof.Proof.RefRun
import proofs.«114485_j5334349382168_1_alg».proof.Proof.Bridge
import Idealize.ShloMosaic.Adequacy
import Idealize.ShloMosaic.Init

noncomputable section

namespace Cert.Proof

open Idealize.ShloMosaic Idealize.SL.Sem

/-- The word-level kernel program terminates without a fault and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealised kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories agreeing on the arguments both idealised programs end with the result array at the same function of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelBlocks.result m c, Cert.KernelIdeal.KernelBlocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]
  exact Cert.Bridge.refOut_eq_result m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
